-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S1 .f32) (main_arg10 : FVec F S128x10 .f32) (main_arg11 : FVec F S10 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x10 .f32 := Host.absf main_arg10
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S256x128 .f32) (main_arg7 : FVec F S128 .f32) (main_arg8 : FVec F S128x1 .f32) (main_arg9 : FVec F S1 .f32) (main_arg10 : FVec F S128x10 .f32) (main_arg11 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_v33

def fn {F : FTy → Type} [FloatOps F] (main_arg0 : FVec F S10000x128 .f32) (main_arg1 : IVec S2x640000 32) (main_arg2 : IVec S10000 32) (main_arg3 : FVec F S128x128 .f32) (main_arg4 : FVec F S128x128 .f32) (main_arg5 : FVec F S128 .f32) (main_arg6 : FVec F S256x128 .f32) (main_arg7 : FVec F S128 .f32) (main_arg8 : FVec F S128x1 .f32) (main_arg9 : FVec F S1 .f32) (main_arg10 : FVec F S128x10 .f32) (main_arg11 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S2000x128 : Shape := ⟨2, ![2000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S640000x256 : Shape := ⟨2, ![640000, 256]⟩
abbrev S5000x256 : Shape := ⟨2, ![5000, 256]⟩
abbrev S5000x1 : Shape := ⟨2, ![5000, 1]⟩
abbrev S5000x128 : Shape := ⟨2, ![5000, 128]⟩
abbrev S1x1 : Shape := ⟨2, ![1, 1]⟩
abbrev S16x128 : Shape := ⟨2, ![16, 128]⟩
abbrev S10000x1 : Shape := ⟨2, ![10000, 1]⟩
abbrev S16 : Shape := ⟨1, ![16]⟩
abbrev S16x1 : Shape := ⟨2, ![16, 1]⟩
abbrev S16x10 : Shape := ⟨2, ![16, 10]⟩
abbrev S1x10 : Shape := ⟨2, ![1, 10]⟩

abbrev nBuf : Space → Nat
  | .hbm => 72
  | .vmem => 23
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x10, .f32⟩
  | .hbm, ⟨11, _⟩ => ⟨S10, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S10000x128, .f32⟩
  | .hbm, ⟨17, _⟩ => ⟨S10000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S10000x128, .f32⟩
  | .hbm, ⟨29, _⟩ => ⟨S640000x1, .i32⟩
  | .hbm, ⟨30, _⟩ => ⟨S10000x128, .f32⟩
  | .hbm, ⟨31, _⟩ => ⟨S10000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x256, .f32⟩
  | .hbm, ⟨51, _⟩ => ⟨S640000x1, .f32⟩
  | .hbm, ⟨52, _⟩ => ⟨S_, .f32⟩
  | .hbm, ⟨53, _⟩ => ⟨S16x128, .f32⟩
  | .hbm, ⟨54, _⟩ => ⟨S10000x1, .i32⟩
  | .hbm, ⟨55, _⟩ => ⟨S16x128, .f32⟩
  | .hbm, ⟨56, _⟩ => ⟨S_, .f32⟩
  | .hbm, ⟨57, _⟩ => ⟨S10000, .f32⟩
  | .hbm, ⟨58, _⟩ => ⟨S_, .f32⟩
  | .hbm, ⟨59, _⟩ => ⟨S16, .f32⟩
  | .hbm, ⟨60, _⟩ => ⟨S10000x1, .i32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16x1, .f32⟩
  | .hbm, ⟨66, _⟩ => ⟨S16x128, .f32⟩
  | .hbm, ⟨67, _⟩ => ⟨S16x128, .f32⟩
  | .hbm, ⟨68, _⟩ => ⟨S16x10, .f32⟩
  | .hbm, ⟨69, _⟩ => ⟨S1x10, .f32⟩
  | .hbm, ⟨70, _⟩ => ⟨S16x10, .f32⟩
  | .hbm, ⟨71, _⟩ => ⟨S16x10, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S128, .f32⟩
  | .local _ .vmem, ⟨19, _⟩ => ⟨S128x1, .f32⟩
  | .local _ .vmem, ⟨20, _⟩ => ⟨S1, .f32⟩
  | .local _ .vmem, ⟨21, _⟩ => ⟨S5000x1, .f32⟩
  | .local _ .vmem, ⟨22, _⟩ => ⟨S5000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S640000x128_S640000x128_S640000x256_d1 : Shape.Concatenates [S640000x128, S640000x128] S640000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S16x128 : S_.BroadcastsInDim S16x128 (![] : Fin 0 → Fin S16x128.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  dot_S2000x128_S128x128_S2000x128_1_0_0_1_n_n_wf : DotDims.WF S2000x128 S128x128 S2000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  scatter_S16x128_S10000x1_S10000x128_1_0_0_1_wf : ScatterDims.WF S16x128 S10000x1 S10000x128 [1] [0] [0] 1
  scatter_S16_S10000x1_S10000_n_0_0_1_wf : ScatterDims.WF S16 S10000x1 S10000 [] [0] [0] 1
  dot_S16x128_S128x10_S16x10_1_0_0_1_n_n_wf : DotDims.WF S16x128 S128x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S640000x256.size a
  hwx2_0 : ∀ i : grid2.Coords, EltTy.bits .f32 = 32 ∨ (Rect.block (s := S640000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S640000x1.size a
  hwx2_5 : ∀ i : grid2.Coords, EltTy.bits .f32 = 32 ∨ (Rect.block (s := S640000x1) S5000x1.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S16x128_S10000x1_S10000x128_1_0_0_1 : ScatterDims S16x128 S10000x1 S10000x128 where
  updateWindowDims := [1]
  insertedWindowDims := [0]
  scatterDimsToOperandDims := [0]
  indexVectorDim := 1
  wf := scatter_S16x128_S10000x1_S10000x128_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S16x128 : Shape := ⟨2, ![16, 128]⟩
abbrev S10000x1 : Shape := ⟨2, ![10000, 1]⟩
abbrev S16 : Shape := ⟨1, ![16]⟩
abbrev S16x1 : Shape := ⟨2, ![16, 1]⟩
abbrev S640000x256 : Shape := ⟨2, ![640000, 256]⟩
abbrev S1x1 : Shape := ⟨2, ![1, 1]⟩
abbrev S16x10 : Shape := ⟨2, ![16, 10]⟩
abbrev S1x10 : Shape := ⟨2, ![1, 10]⟩

abbrev nBuf : Space → Nat
  | .hbm => 88
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x10, .f32⟩
  | .hbm, ⟨11, _⟩ => ⟨S10, .f32⟩
  | .hbm, ⟨12, _⟩ => ⟨S1x640000, .i32⟩
  | .hbm, ⟨13, _⟩ => ⟨S640000, .i32⟩
  | .hbm, ⟨14, _⟩ => ⟨S1x640000, .i32⟩
  | .hbm, ⟨15, _⟩ => ⟨S640000, .i32⟩
  | .hbm, ⟨16, _⟩ => ⟨S10000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S_, .f32⟩
  | .hbm, ⟨27, _⟩ => ⟨S10000x128, .f32⟩
  | .hbm, ⟨28, _⟩ => ⟨S640000x1, .i32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S1x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S16x128, .f32⟩
  | .hbm, ⟨40, _⟩ => ⟨S10000x1, .i32⟩
  | .hbm, ⟨41, _⟩ => ⟨S16x128, .f32⟩
  | .hbm, ⟨42, _⟩ => ⟨S_, .f32⟩
  | .hbm, ⟨43, _⟩ => ⟨S10000, .f32⟩
  | .hbm, ⟨44, _⟩ => ⟨S_, .f32⟩
  | .hbm, ⟨45, _⟩ => ⟨S16, .f32⟩
  | .hbm, ⟨46, _⟩ => ⟨S10000x1, .i32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16x1, .f32⟩
  | .hbm, ⟨52, _⟩ => ⟨S16x128, .f32⟩
  | .hbm, ⟨53, _⟩ => ⟨S16x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S640000x128, .f32⟩
  | .hbm, ⟨63, _⟩ => ⟨S_, .i32⟩
  | .hbm, ⟨64, _⟩ => ⟨S640000, .i32⟩
  | .hbm, ⟨65, _⟩ => ⟨S640000, .i1⟩
  | .hbm, ⟨66, _⟩ => ⟨S_, .i32⟩
  | .hbm, ⟨67, _⟩ => ⟨S640000, .i32⟩
  | .hbm, ⟨68, _⟩ => ⟨S640000, .i32⟩
  | .hbm, ⟨69, _⟩ => ⟨S640000, .i32⟩
  | .hbm, ⟨70, _⟩ => ⟨S640000x1, .i32⟩
  | .hbm, ⟨71, _⟩ => ⟨S640000x128, .f32⟩
  | .hbm, ⟨72, _⟩ => ⟨S640000x256, .f32⟩
  | .hbm, ⟨73, _⟩ => ⟨S640000x128, .f32⟩
  | .hbm, ⟨74, _⟩ => ⟨S1x128, .f32⟩
  | .hbm, ⟨75, _⟩ => ⟨S640000x128, .f32⟩
  | .hbm, ⟨76, _⟩ => ⟨S640000x128, .f32⟩
  | .hbm, ⟨77, _⟩ => ⟨S_, .f32⟩
  | .hbm, ⟨78, _⟩ => ⟨S640000x128, .f32⟩
  | .hbm, ⟨79, _⟩ => ⟨S640000x128, .f32⟩
  | .hbm, ⟨80, _⟩ => ⟨S640000x1, .f32⟩
  | .hbm, ⟨81, _⟩ => ⟨S1x1, .f32⟩
  | .hbm, ⟨82, _⟩ => ⟨S640000x1, .f32⟩
  | .hbm, ⟨83, _⟩ => ⟨S640000x1, .f32⟩
  | .hbm, ⟨84, _⟩ => ⟨S16x10, .f32⟩
  | .hbm, ⟨85, _⟩ => ⟨S1x10, .f32⟩
  | .hbm, ⟨86, _⟩ => ⟨S16x10, .f32⟩
  | .hbm, ⟨87, _⟩ => ⟨S16x10, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S16x128 : S_.BroadcastsInDim S16x128 (![] : Fin 0 → Fin S16x128.rank)
  bcast_S10000_S10000x1_0 : S10000.BroadcastsInDim S10000x1 (![0] : Fin 1 → Fin S10000x1.rank)
  bcast_S_S10000 : S_.BroadcastsInDim S10000 (![] : Fin 0 → Fin S10000.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S640000x128_S640000x128_S640000x256_d1 : Shape.Concatenates [S640000x128, S640000x128] S640000x256 1
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S16x128_S10000x1_S10000x128_1_0_0_1_wf : ScatterDims.WF S16x128 S10000x1 S10000x128 [1] [0] [0] 1
  scatter_S16_S10000x1_S10000_n_0_0_1_wf : ScatterDims.WF S16 S10000x1 S10000 [] [0] [0] 1
  dot_S640000x256_S256x128_S640000x128_1_0_0_1_n_n_wf : DotDims.WF S640000x256 S256x128 S640000x128 [1] [0] [0] [1] [] []
  dot_S640000x128_S128x1_S640000x1_1_0_0_1_n_n_wf : DotDims.WF S640000x128 S128x1 S640000x1 [1] [0] [0] [1] [] []
  dot_S16x128_S128x10_S16x10_1_0_0_1_n_n_wf : DotDims.WF S16x128 S128x10 S16x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S16x128_S10000x1_S10000x128_1_0_0_1 : ScatterDims S16x128 S10000x1 S10000x128 where
  updateWindowDims := [1]
  insertedWindowDims := [0]
  scatterDimsToOperandDims := [0]
  indexVectorDim := 1
  wf := scatter_S16x128_S10000x1_S10000x128_1_0_0_1_wf
def scatter_S16_S10000x1_S10000_n_0_0_1 : ScatterDims S16 S10000x1 S10000 where
  updateWindowDims := []
  insertedWindowDims := [0]
  scatterDimsToOperandDims := [0]
  indexVectorDim := 1
  wf := scatter_S16_S10000x1_S10000_n_0_0_1_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def dot_S16x128_S128x10_S16x10_1_0_0_1_n_n : DotDims S16x128 S128x10 S16x10 where
  lhsContracting := [1]
  rhsContracting := [0]
  lhsNonContracting := [0]
  rhsNonContracting := [1]
  lhsBatch := []
  rhsBatch := []
  wf := dot_S16x128_S128x10_S16x10_1_0_0_1_n_n_wf

class Facts : Prop extends Facts₀ where

variable [Facts]
-- ==== Proof.LinBlock.lean ====
/-
  The node-level linear layer. Each grid point of the first kernel multiplies a block of 2000 rows of the node features by a
  whole 128 × 128 weight matrix, twice (once per weight), into a zero accumulator. Over the extended reals entry (r, j) of such
  a product is the plain sum over k of x[r, k] · W[k, j], with no rounding and no order, so block t of the product is rows
  2000 t … 2000 t + 1999 of the whole product x · W, and the five blocks tile the 10000 rows: after the region each
  of its two output arrays holds the host's `dot_general` of the node features with the corresponding weight.
-/
import proofs.«160619_j47141561041135_1_alg».proof.Proof.Gen.KernelIdeal.Frame
import proofs.«160619_j47141561041135_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Lin

open Cert.KernelIdeal Cert.KernelIdeal.Gen Idealize.ShloMosaic Idealize.ShloMosaic.TcCoe Idealize.SL.Sem
open Idealize.ShloMosaic.Pipeline (Dat)

/-! ## One block's product at an entry -/

theorem lhs_blk_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blk_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blk_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blk_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `j 0` of the block at column `k`. -/
abbrev rowAt (j : S2000x128.Idx) (k : Fin 128) : S2000x128.Idx := fun a => match a with
  | ⟨0, _⟩ => ⟨(j 0).val, (j 0).isLt⟩
  | ⟨1, _⟩ => ⟨k.val, k.isLt⟩
/-- Row `k` of the weight at column `j 1`. -/
abbrev colAt (j : S2000x128.Idx) (k : Fin 128) : S128x128.Idx := fun a => match a with
  | ⟨0, _⟩ => ⟨k.val, k.isLt⟩
  | ⟨1, _⟩ => ⟨(j 1).val, (j 1).isLt⟩

/-- A block's product into the zero accumulator, at entry `j`: the sum over the 128 contracted coordinates. -/
theorem matmul_blk_apply (x : FVec Ideal S2000x128 .bf16) (w : FVec Ideal S128x128 .bf16) (j : S2000x128.Idx) :
    matmul dot_S2000x128_S128x128_S2000x128_1_0_0_1_n_n none x w (constant S2000x128 .f32 0x00000000#32) j
      = ∑ k : Fin 128, x (rowAt j k) * w (colAt j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = rowAt j k := funext fun a => Fin.ext (by
    match a with
    | ⟨0, _⟩ => exact lhs_blk_0 _ _
    | ⟨1, _⟩ => exact (lhs_blk_1 _ _).trans hk)
  have er : dot_S2000x128_S128x128_S2000x128_1_0_0_1_n_n.rhsIdx j ((ValueIdx.contrEquiv1 dot_S2000x128_S128x128_S2000x128_1_0_0_1_n_n 128 rfl rfl).symm k) = colAt j k := funext fun a => Fin.ext (by
    match a with
    | ⟨0, _⟩ => exact (rhs_blk_0 _ _).trans hk
    | ⟨1, _⟩ => exact rhs_blk_1 _ _)
  rw [el, er]

/-- The first store's value at an entry: a change of float format is the identity over the extended reals. -/
theorem pay2_apply (x0 : Vec Ideal S2000x128 .f32) (w : Vec Ideal S128x128 .f32) (j : S2000x128.Idx) :
    k0_pay2 (F := Ideal) x0 w j = ∑ k : Fin 128, x0 (rowAt j k) * w (colAt j k) := by
  unfold k0_pay2 k0_pay1
  exact matmul_blk_apply _ _ j

/-- The second store's value at an entry. -/
theorem pay3_apply (x0 : Vec Ideal S2000x128 .f32) (w : Vec Ideal S128x128 .f32) (j : S2000x128.Idx) :
    k0_pay3 (F := Ideal) x0 w j = ∑ k : Fin 128, x0 (rowAt j k) * w (colAt j k) := by
  unfold k0_pay3 k0_pay1
  exact matmul_blk_apply _ _ j

end Cert.KernelIdeal.Lin

end
-- ==== Proof.Lin.lean ====
/-
  The first kernel region as a whole. Point t of its grid reads block t of the node features (rows 2000 t … 2000 t + 1999)
  and both weights whole, and writes block t of each output; by the block lemma what it writes is block t of the whole
  product, and every row lies in the block of the point `row / 2000`. So whatever the buffers hold when the region is
  entered, its two output arrays end holding the host's product of the node features' array with each weight's array.
-/
import proofs.«160619_j47141561041135_1_alg».proof.Proof.LinBlock

set_option maxRecDepth 16384

noncomputable section

namespace Cert.KernelIdeal.Lin

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five points: the features' block and both outputs' blocks sit at block row `t`,
    block column 0; the weights' blocks are the whole matrices. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the first output is block `t` of the whole product with the first weight. -/
theorem flushed3_eq (c : Dev nD) (t : Fin cfg0.N) :
    (dat0 V c).flushed 3 t = ((cfg0.win 3).blk t).view.read (Elt Ideal)
      (Cert.ReferenceIdeal.Read.val_main_v4 (F := Ideal) (V c main_arg0) (V c main_arg3)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  obtain ⟨e00, e01, e10, e11, e20, e21, e30, e31, e40, e41⟩ := idx_facts t
  funext j
  show k0_pay2 (F := Ideal) (iblk0 V c 0 t) (iblk0 V c 1 t) j
    = Cert.ReferenceIdeal.Read.val_main_v4 (F := Ideal) (V c main_arg0) (V c main_arg3) (((cfg0.win 3).blk t).view.emb j)
  rw [Cert.ReferenceIdeal.Read.val_main_v4_apply]
  refine (pay2_apply (iblk0 V c 0 t) (iblk0 V c 1 t) j).trans ?_
  refine Finset.sum_congr rfl fun k _ => ?_
  have h0 : iblk0 V c 0 t (rowAt j k) = V c main_arg0 (Cert.ReferenceIdeal.Read.lidx_main_v4 (((cfg0.win 3).blk t).view.emb j) k) := by
    show V c main_arg0 (((cfg0.win 0).blk t).view.emb (rowAt j k)) = _
    refine congrArg (V c main_arg0) ?_
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  have h1 : iblk0 V c 1 t (colAt j k) = V c main_arg3 (Cert.ReferenceIdeal.Read.ridx_main_v4 (((cfg0.win 3).blk t).view.emb j) k) := by
    show V c main_arg3 (((cfg0.win 1).blk t).view.emb (colAt j k)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  rw [h0, h1]

/-- What point `t` writes back to the second output is block `t` of the whole product with the second weight. -/
theorem flushed4_eq (c : Dev nD) (t : Fin cfg0.N) :
    (dat0 V c).flushed 4 t = ((cfg0.win 4).blk t).view.read (Elt Ideal)
      (Cert.ReferenceIdeal.Read.val_main_v15 (F := Ideal) (V c main_arg0) (V c main_arg4)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  obtain ⟨e00, e01, e10, e11, e20, e21, e30, e31, e40, e41⟩ := idx_facts t
  funext j
  show k0_pay3 (F := Ideal) (iblk0 V c 0 t) (iblk0 V c 2 t) j
    = Cert.ReferenceIdeal.Read.val_main_v15 (F := Ideal) (V c main_arg0) (V c main_arg4) (((cfg0.win 4).blk t).view.emb j)
  rw [Cert.ReferenceIdeal.Read.val_main_v15_apply]
  refine (pay3_apply (iblk0 V c 0 t) (iblk0 V c 2 t) j).trans ?_
  refine Finset.sum_congr rfl fun k _ => ?_
  have h0 : iblk0 V c 0 t (rowAt j k) = V c main_arg0 (Cert.ReferenceIdeal.Read.lidx_main_v15 (((cfg0.win 4).blk t).view.emb j) k) := by
    show V c main_arg0 (((cfg0.win 0).blk t).view.emb (rowAt j k)) = _
    refine congrArg (V c main_arg0) ?_
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  have h1 : iblk0 V c 2 t (colAt j k) = V c main_arg4 (Cert.ReferenceIdeal.Read.ridx_main_v15 (((cfg0.win 4).blk t).view.emb j) k) := by
    show V c main_arg4 (((cfg0.win 2).blk t).view.emb (colAt j k)) = _
    refine congrArg (V c main_arg4) ?_
    funext a; apply Fin.ext
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  rw [h0, h1]

/-- An entry is in point `t`'s block of the first output iff each coordinate is in the block's range. -/
theorem mem_blk3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4_0).slice (win0_3.rect t)).set ↔ _
  rw [View.set_slice_whole, Rect.mem_set_unit]
  exact Iff.rfl

theorem mem_blk4 (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v4_1).slice (win0_4.rect t)).set ↔ _
  rw [View.set_slice_whole, Rect.mem_set_unit]
  exact Iff.rfl

/-- Row `r` is in the block of the point `r / 2000`. -/
theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 5 := N_0
  refine ⟨⟨(i 0).val / 2000, by omega⟩, flush0_3 _, ?_⟩
  rw [mem_blk3]
  obtain ⟨e00, e01, e10, e11, e20, e21, e30, e31, e40, e41⟩ := idx_facts ⟨(i 0).val / 2000, by omega⟩
  intro a
  match a with
  | ⟨0, _⟩ => show win0_3.index _ (0 : Fin 2) * 2000 ≤ (i 0).val ∧ (i 0).val < win0_3.index _ (0 : Fin 2) * 2000 + 2000; rw [e30]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e31]; omega

theorem cover4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 5 := N_0
  refine ⟨⟨(i 0).val / 2000, by omega⟩, flush0_4 _, ?_⟩
  rw [mem_blk4]
  obtain ⟨e00, e01, e10, e11, e20, e21, e30, e31, e40, e41⟩ := idx_facts ⟨(i 0).val / 2000, by omega⟩
  intro a
  match a with
  | ⟨0, _⟩ => show win0_4.index _ (0 : Fin 2) * 2000 ≤ (i 0).val ∧ (i 0).val < win0_4.index _ (0 : Fin 2) * 2000 + 2000; rw [e40]; show (i 0).val / 2000 * 2000 ≤ (i 0).val ∧ (i 0).val < (i 0).val / 2000 * 2000 + 2000; omega
  | ⟨1, _⟩ => show win0_4.index _ (1 : Fin 2) * 128 ≤ (i 1).val ∧ (i 1).val < win0_4.index _ (1 : Fin 2) * 128 + 128; rw [e41]; omega

/-- After the region its first output array is the features' array times the first weight's. -/
theorem out3 (c : Dev nD) : (dat0 V c).arrAt 3 cfg0.N = Cert.ReferenceIdeal.Read.val_main_v4 (F := Ideal) (V c main_arg0) (V c main_arg3) :=
  (dat0 V c).arrAt_eq_of_cover 3 _ (fun t _ => flushed3_eq V c t) cover3

/-- After the region its second output array is the features' array times the second weight's. -/
theorem out4 (c : Dev nD) : (dat0 V c).arrAt 4 cfg0.N = Cert.ReferenceIdeal.Read.val_main_v15 (F := Ideal) (V c main_arg0) (V c main_arg4) :=
  (dat0 V c).arrAt_eq_of_cover 4 _ (fun t _ => flushed4_eq V c t) cover4

end Cert.KernelIdeal.Lin

end
-- ==== Proof.NodeBlock.lean ====
/-
  The node update. The second kernel adds, entry by entry, the aggregated messages, the self term and the bias (one
  value per column, the same for every row) and takes the maximum with zero. Each grid point does this on a block of
  2000 rows, so block t of the result is rows 2000 t … 2000 t + 1999 of the whole-array expression
  max((agg + self) + bias, 0), and the five blocks tile the 10000 rows.
-/
import proofs.«160619_j47141561041135_1_alg».proof.Proof.Gen.KernelIdeal.Frame
import proofs.«160619_j47141561041135_1_alg».proof.Proof.Gen.ReferenceIdeal.Read
import Idealize.ShloMosaic.Lib.Pipeline.Value
import Idealize.ShloMosaic.Lib.ValueIdx

set_option maxRecDepth 16384

noncomputable section

namespace Cert.KernelIdeal.NodeUpd

open Cert.KernelIdeal Cert.KernelIdeal.Gen Idealize.ShloMosaic Idealize.ShloMosaic.TcCoe Idealize.SL.Sem
open Idealize.ShloMosaic.Pipeline (Dat)

variable {F : FTy → Type} [FloatOps F]

/-! ## The whole-array expression, in the host's own operations -/

/-- max((A + B) + bias, 0) over whole arrays, the bias broadcast along the rows: the host's operations. -/
def nodeUpd (A B : (⟨Cert.ReferenceIdeal.S10000x128, .f32⟩ : BufTy).Contents (Elt F)) (b : (⟨Cert.ReferenceIdeal.S128, .f32⟩ : BufTy).Contents (Elt F)) :
    (⟨Cert.ReferenceIdeal.S10000x128, .f32⟩ : BufTy).Contents (Elt F) :=
  maximumf (addf (addf A B) (Cert.ReferenceIdeal.Read.val_main_v18 (F := F) b)) (Cert.ReferenceIdeal.Read.val_main_call0_v0 (F := F))

/-- The column of an entry, as an index of the bias vector. -/
abbrev colOf (i : Cert.ReferenceIdeal.S10000x128.Idx) : Cert.ReferenceIdeal.S128.Idx := fun a => match a with
  | ⟨0, _⟩ => ⟨(i 1).val, (i 1).isLt⟩

theorem nodeUpd_apply (A B : (⟨Cert.ReferenceIdeal.S10000x128, .f32⟩ : BufTy).Contents (Elt F)) (b : (⟨Cert.ReferenceIdeal.S128, .f32⟩ : BufTy).Contents (Elt F))
    (i : Cert.ReferenceIdeal.S10000x128.Idx) :
    nodeUpd A B b i = FloatOps.maximumf (FloatOps.addf (FloatOps.addf (A i) (B i)) (b (colOf i))) (FloatOps.ofBits .f32 0x00000000#32) := by
  unfold nodeUpd
  show FloatOps.maximumf (FloatOps.addf (FloatOps.addf (A i) (B i)) (Cert.ReferenceIdeal.Read.val_main_v18 (F := F) b i)) (Cert.ReferenceIdeal.Read.val_main_call0_v0 (F := F) i) = _
  rw [Cert.ReferenceIdeal.Read.val_main_v18_apply, Cert.ReferenceIdeal.Read.val_main_v17_apply, Cert.ReferenceIdeal.Read.val_main_call0_v0_apply]
  rfl

/-! ## One block's stored value at an entry -/

/-- The column of a block entry, as an index of the bias vector. -/
abbrev bcol (j : S2000x128.Idx) : S128.Idx := fun a => match a with
  | ⟨0, _⟩ => ⟨(j 1).val, (j 1).isLt⟩

theorem pay_apply (v0 v2 : Vec F S2000x128 .f32) (v5 : Vec F S128 .f32) (j : S2000x128.Idx) :
    k1_pay1 v0 v2 v5 j = FloatOps.maximumf (FloatOps.addf (FloatOps.addf (v0 j) (v2 j)) (v5 (bcol j))) (FloatOps.ofBits .f32 0x00000000#32) := by
  unfold k1_pay1
  have hb : broadcastTo S2000x128 (shapeCast S1x128 v5 shapeCasts_S128_S1x128) broadcasts_S1x128_S2000x128 j = v5 (bcol j) := by
    rw [broadcastTo_apply _ broadcasts_S1x128_S2000x128 j (fun a => match a with | ⟨0, _⟩ => ⟨0, Nat.one_pos⟩ | ⟨1, _⟩ => ⟨(j 1).val, (j 1).isLt⟩)
      (fun a => match a with
        | ⟨0, _⟩ => by show 0 = if (1 : Nat) = 1 then 0 else _; rw [if_pos rfl]
        | ⟨1, _⟩ => by show (j 1).val = if (128 : Nat) = 1 then 0 else (j 1).val; rw [if_neg (by decide)])]
    exact (shapeCast_addUnit_apply ![128] v5 shapeCasts_S128_S1x128 _).trans (congrArg v5 (funext fun a => match a with | ⟨0, _⟩ => rfl))
  show FloatOps.maximumf (FloatOps.addf (FloatOps.addf (shapeCast S2000x128 v0 shapeCasts_S2000x128_S2000x128 j) (shapeCast S2000x128 v2 shapeCasts_S2000x128_S2000x128 j))
      (broadcastTo S2000x128 (shapeCast S1x128 v5 shapeCasts_S128_S1x128) broadcasts_S1x128_S2000x128 j)) (FloatOps.ofBits .f32 0x00000000#32) = _
  rw [hb, shapeCast_self, shapeCast_self]

end Cert.KernelIdeal.NodeUpd

end
-- ==== Proof.Node.lean ====
/-
  The second kernel region as a whole. Point t reads block t (rows 2000 t … 2000 t + 1999) of the aggregated messages
  and of the self term, and the bias whole, and writes block t of the output; by the block lemma what it writes is
  block t of the whole-array update, and every row lies in the block of the point `row / 2000`. So whatever the buffers
  hold when the region is entered, its output array ends holding max((agg + self) + bias, 0) of its three input arrays.
-/
import proofs.«160619_j47141561041135_1_alg».proof.Proof.NodeBlock

set_option maxRecDepth 16384

noncomputable section

namespace Cert.KernelIdeal.NodeUpd

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the five points: both row-blocked inputs and the output sit at block row `t`, block
    column 0; the bias's block is the whole vector. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the whole-array update of the region's input arrays. -/
theorem flushed3_eq (c : Dev nD) (t : Fin cfg1.N) :
    (dat1 V c).flushed 3 t = ((cfg1.win 3).blk t).view.read (Elt F)
      (nodeUpd (F := F) (V c main_v14) (V c main_v4_1) (V c main_arg5)) := by
  show (cfg1.win 3).cut (grid1.coords t) ((dat1 V c).after 3 t) = _
  rw [after1_3]
  unfold out1_3
  rw [View.canon_unit_zero hz2]
  simp only [View.ld_unit_zero (S := S2000x128) hz2, View.ld_unit_zero (S := S128) hz1]
  obtain ⟨e00, e01, e10, e11, e20, e30, e31⟩ := idx_facts t
  funext j
  show k1_pay1 (iblk1 V c 0 t) (iblk1 V c 1 t) (iblk1 V c 2 t) j
    = nodeUpd (F := F) (V c main_v14) (V c main_v4_1) (V c main_arg5) (((cfg1.win 3).blk t).view.emb j)
  rw [nodeUpd_apply]
  refine (pay_apply (iblk1 V c 0 t) (iblk1 V c 1 t) (iblk1 V c 2 t) j).trans ?_
  have h0 : iblk1 V c 0 t j = V c main_v14 (((cfg1.win 3).blk t).view.emb j) := by
    show V c main_v14 (((cfg1.win 0).blk t).view.emb j) = _
    refine congrArg (V c main_v14) ?_
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  have h1 : iblk1 V c 1 t j = V c main_v4_1 (((cfg1.win 3).blk t).view.emb j) := by
    show V c main_v4_1 (((cfg1.win 1).blk t).view.emb j) = _
    refine congrArg (V c main_v4_1) ?_
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 128 + 1 * (j 1).val = win1_3.index t (1 : Fin 2) * 128 + 1 * (j 1).val; omega
  have h2 : iblk1 V c 2 t (bcol j) = V c main_arg5 (colOf (((cfg1.win 3).blk t).view.emb j)) := by
    show V c main_arg5 (((cfg1.win 2).blk t).view.emb (bcol j)) = _
    refine congrArg (V c main_arg5) ?_
    funext a; apply Fin.ext
    match a with
    | ⟨0, _⟩ => show win1_2.index t (0 : Fin 1) * 128 + 1 * (j 1).val = win1_3.index t (1 : Fin 2) * 128 + 1 * (j 1).val; omega
  rw [h0, h1, h2]

/-- An entry is in point `t`'s block iff each coordinate is in the block's range. -/
theorem mem_blk3 (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v15).slice (win1_3.rect t)).set ↔ _
  rw [View.set_slice_whole, Rect.mem_set_unit]
  exact Iff.rfl

/-- Row `r` is in the block of the point `r / 2000`. -/
theorem cover3 (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 5 := N_1
  refine ⟨⟨(i 0).val / 2000, by omega⟩, flush1_3 _, ?_⟩
  rw [mem_blk3]
  obtain ⟨e00, e01, e10, e11, e20, e30, e31⟩ := idx_facts ⟨(i 0).val / 2000, by omega⟩
  intro a
  match a with
  | ⟨0, _⟩ => show win1_3.index _ (0 : Fin 2) * 2000 ≤ (i 0).val ∧ (i 0).val < win1_3.index _ (0 : Fin 2) * 2000 + 2000; rw [e30]; show (i 0).val / 2000 * 2000 ≤ (i 0).val ∧ (i 0).val < (i 0).val / 2000 * 2000 + 2000; omega
  | ⟨1, _⟩ => show win1_3.index _ (1 : Fin 2) * 128 ≤ (i 1).val ∧ (i 1).val < win1_3.index _ (1 : Fin 2) * 128 + 128; rw [e31]; omega

/-- After the region its output array is the whole-array update of its three input arrays as the region found them. -/
theorem out3 (c : Dev nD) : (dat1 V c).arrAt 3 cfg1.N = nodeUpd (F := F) (V c main_v14) (V c main_v4_1) (V c main_arg5) :=
  (dat1 V c).arrAt_eq_of_cover 3 _ (fun t _ => flushed3_eq V c t) cover3

end Cert.KernelIdeal.NodeUpd

end
-- ==== Proof.EdgeBlock.lean ====
/-
  The edge predictor's two-layer perceptron on one block of 5000 edges. The kernel multiplies the block of edge features
  (5000 × 256) by the first weight, adds the first bias along the rows, takes the maximum with zero, multiplies the result
  (5000 × 128) by the second weight (128 × 1) and adds the second bias. Over the extended reals each product into a zero
  accumulator is the plain sum over the contracted coordinate and a change of float format is the identity, so the stored
  value at edge r is  (Σ_c max((Σ_k E[r,k] · W1[k,c]) + b1[c], 0) · W2[c,0]) + b2[0].
-/
import proofs.«160619_j47141561041135_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Edge

open Cert.KernelIdeal Cert.KernelIdeal.Gen Idealize.ShloMosaic Idealize.ShloMosaic.TcCoe Idealize.SL.Sem

/-! ## The two products at an entry -/

theorem lhs_mm1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_mm1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_mm1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_mm1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem lhs_mm2_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_mm2_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_mm2_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_mm2_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Row `i 0` of the features' block at column `k`. -/
abbrev l1 (i : S5000x128.Idx) (k : Fin 256) : S5000x256.Idx := fun a => match a with
  | ⟨0, _⟩ => ⟨(i 0).val, (i 0).isLt⟩
  | ⟨1, _⟩ => ⟨k.val, k.isLt⟩
/-- Row `k` of the first weight at column `i 1`. -/
abbrev r1 (i : S5000x128.Idx) (k : Fin 256) : S256x128.Idx := fun a => match a with
  | ⟨0, _⟩ => ⟨k.val, k.isLt⟩
  | ⟨1, _⟩ => ⟨(i 1).val, (i 1).isLt⟩
/-- Row `j 0` of the hidden layer at column `c`. -/
abbrev l2 (j : S5000x1.Idx) (c : Fin 128) : S5000x128.Idx := fun a => match a with
  | ⟨0, _⟩ => ⟨(j 0).val, (j 0).isLt⟩
  | ⟨1, _⟩ => ⟨c.val, c.isLt⟩
/-- Row `c` of the second weight at column `j 1`. -/
abbrev r2 (j : S5000x1.Idx) (c : Fin 128) : S128x1.Idx := fun a => match a with
  | ⟨0, _⟩ => ⟨c.val, c.isLt⟩
  | ⟨1, _⟩ => ⟨(j 1).val, (j 1).isLt⟩
/-- The column of a hidden-layer entry, as an index of the first bias. -/
abbrev bc1 (i : S5000x128.Idx) : S128.Idx := fun a => match a with
  | ⟨0, _⟩ => ⟨(i 1).val, (i 1).isLt⟩
/-- The one index of the second bias. -/
abbrev bc2 : S1.Idx := fun a => match a with
  | ⟨0, _⟩ => ⟨0, Nat.one_pos⟩

theorem mm1_apply (x : FVec Ideal S5000x256 .bf16) (w : FVec Ideal S256x128 .bf16) (j : S5000x128.Idx) :
    matmul dot_S5000x256_S256x128_S5000x128_1_0_0_1_n_n none x w (constant S5000x128 .f32 0x00000000#32) j
      = ∑ k : Fin 256, x (l1 j k) * w (r1 j k) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = l1 j k := funext fun a => Fin.ext (by
    match a with
    | ⟨0, _⟩ => exact lhs_mm1_0 _ _
    | ⟨1, _⟩ => exact (lhs_mm1_1 _ _).trans hk)
  have er : dot_S5000x256_S256x128_S5000x128_1_0_0_1_n_n.rhsIdx j ((ValueIdx.contrEquiv1 dot_S5000x256_S256x128_S5000x128_1_0_0_1_n_n 256 rfl rfl).symm k) = r1 j k := funext fun a => Fin.ext (by
    match a with
    | ⟨0, _⟩ => exact (rhs_mm1_0 _ _).trans hk
    | ⟨1, _⟩ => exact rhs_mm1_1 _ _)
  rw [el, er]

theorem mm2_apply (x : FVec Ideal S5000x128 .bf16) (w : FVec Ideal S128x1 .bf16) (j : S5000x1.Idx) :
    matmul dot_S5000x128_S128x1_S5000x1_1_0_0_1_n_n none x w (constant S5000x1 .f32 0x00000000#32) j
      = ∑ k : Fin 128, x (l2 j k) * w (r2 j k) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx j ((ValueIdx.contrEquiv1 dot_S5000x128_S128x1_S5000x1_1_0_0_1_n_n 128 rfl rfl).symm k) = l2 j k := funext fun a => Fin.ext (by
    match a with
    | ⟨0, _⟩ => exact lhs_mm2_0 _ _
    | ⟨1, _⟩ => exact (lhs_mm2_1 _ _).trans hk)
  have er : dot_S5000x128_S128x1_S5000x1_1_0_0_1_n_n.rhsIdx j ((ValueIdx.contrEquiv1 dot_S5000x128_S128x1_S5000x1_1_0_0_1_n_n 128 rfl rfl).symm k) = r2 j k := funext fun a => Fin.ext (by
    match a with
    | ⟨0, _⟩ => exact (rhs_mm2_0 _ _).trans hk
    | ⟨1, _⟩ => exact rhs_mm2_1 _ _)
  rw [el, er]

/-! ## The stored value at an edge -/

theorem pay_apply (v0 : Vec Ideal S5000x256 .f32) (v3 : Vec Ideal S256x128 .f32) (v6 : Vec Ideal S128 .f32) (v13 : Vec Ideal S128x1 .f32)
    (v16 : Vec Ideal S1 .f32) (j : S5000x1.Idx) :
    k2_pay1 (F := Ideal) v0 v3 v6 v13 v16 j
      = FloatOps.addf (F := Ideal) (φ := .f32) (∑ c : Fin 128, FloatOps.maximumf (F := Ideal) (φ := .f32) (FloatOps.addf (F := Ideal) (φ := .f32) (∑ k : Fin 256, v0 (l1 (l2 j c) k) * v3 (r1 (l2 j c) k)) (v6 (bc1 (l2 j c))))
          (FloatOps.ofBits (F := Ideal) .f32 0x00000000#32) * v13 (r2 j c)) (v16 bc2) := by
  unfold k2_pay1
  have hmm1 : ∀ i : S5000x128.Idx, matmul (F := Ideal) dot_S5000x256_S256x128_S5000x128_1_0_0_1_n_n none (truncf (F := Ideal) .bf16 (shapeCast S5000x256 v0 shapeCasts_S5000x256_S5000x256) bitsLt_bf16_f32) (truncf (F := Ideal) .bf16 v3 bitsLt_bf16_f32) (constant (F := Ideal) S5000x128 .f32 0x00000000#32) i = ∑ k : Fin 256, v0 (l1 i k) * v3 (r1 i k) := fun i => by
    rw [mm1_apply, shapeCast_self]; rfl
  have hb1 : ∀ i : S5000x128.Idx, broadcastTo S5000x128 (shapeCast S1x128 v6 shapeCasts_S128_S1x128) broadcasts_S1x128_S5000x128 i = v6 (bc1 i) := fun i => by
    rw [broadcastTo_apply _ broadcasts_S1x128_S5000x128 i (fun a => match a with | ⟨0, _⟩ => ⟨0, Nat.one_pos⟩ | ⟨1, _⟩ => ⟨(i 1).val, (i 1).isLt⟩)
      (fun a => match a with
        | ⟨0, _⟩ => by show 0 = if (1 : Nat) = 1 then 0 else _; rw [if_pos rfl]
        | ⟨1, _⟩ => by show (i 1).val = if (128 : Nat) = 1 then 0 else (i 1).val; rw [if_neg (by decide)])]
    exact (shapeCast_addUnit_apply ![128] v6 shapeCasts_S128_S1x128 _).trans (congrArg v6 (funext fun a => match a with | ⟨0, _⟩ => rfl))
  have hb2 : broadcastTo S5000x1 (shapeCast S1x1 v16 shapeCasts_S1_S1x1) broadcasts_S1x1_S5000x1 j = v16 bc2 := by
    rw [broadcastTo_apply _ broadcasts_S1x1_S5000x1 j (fun a => match a with | ⟨0, _⟩ => ⟨0, Nat.one_pos⟩ | ⟨1, _⟩ => ⟨0, Nat.one_pos⟩)
      (fun a => match a with
        | ⟨0, _⟩ => by show 0 = if (1 : Nat) = 1 then 0 else _; rw [if_pos rfl]
        | ⟨1, _⟩ => by show 0 = if (1 : Nat) = 1 then 0 else _; rw [if_pos rfl])]
    exact (shapeCast_addUnit_apply ![1] v16 shapeCasts_S1_S1x1 _).trans (congrArg v16 (funext fun a => match a with | ⟨0, _⟩ => rfl))
  show FloatOps.addf (F := Ideal) (φ := .f32) (matmul (F := Ideal) dot_S5000x128_S128x1_S5000x1_1_0_0_1_n_n none (truncf (F := Ideal) .bf16 (maximumf (F := Ideal) (addf (F := Ideal) (matmul (F := Ideal) dot_S5000x256_S256x128_S5000x128_1_0_0_1_n_n none (truncf (F := Ideal) .bf16 (shapeCast S5000x256 v0 shapeCasts_S5000x256_S5000x256) bitsLt_bf16_f32) (truncf (F := Ideal) .bf16 v3 bitsLt_bf16_f32) (constant (F := Ideal) S5000x128 .f32 0x00000000#32)) (broadcastTo S5000x128 (shapeCast S1x128 v6 shapeCasts_S128_S1x128) broadcasts_S1x128_S5000x128)) (broadcast S5000x128 (Scalar.ofBits (F := Ideal) .f32 0x00000000#32))) bitsLt_bf16_f32) (truncf (F := Ideal) .bf16 v13 bitsLt_bf16_f32) (constant (F := Ideal) S5000x1 .f32 0x00000000#32) j)
      (broadcastTo S5000x1 (shapeCast S1x1 v16 shapeCasts_S1_S1x1) broadcasts_S1x1_S5000x1 j) = _
  rw [hb2, mm2_apply]
  refine congrArg (fun s => FloatOps.addf (F := Ideal) (φ := .f32) s (v16 bc2)) (Finset.sum_congr rfl fun c _ => ?_)
  show FloatOps.maximumf (F := Ideal) (φ := .f32) (FloatOps.addf (F := Ideal) (φ := .f32) (matmul (F := Ideal) dot_S5000x256_S256x128_S5000x128_1_0_0_1_n_n none (truncf (F := Ideal) .bf16 (shapeCast S5000x256 v0 shapeCasts_S5000x256_S5000x256) bitsLt_bf16_f32) (truncf (F := Ideal) .bf16 v3 bitsLt_bf16_f32) (constant (F := Ideal) S5000x128 .f32 0x00000000#32) (l2 j c)) (broadcastTo S5000x128 (shapeCast S1x128 v6 shapeCasts_S128_S1x128) broadcasts_S1x128_S5000x128 (l2 j c))) (FloatOps.ofBits (F := Ideal) .f32 0x00000000#32) * v13 (r2 j c) = _
  rw [hmm1, hb1]

end Cert.KernelIdeal.Edge

end
-- ==== Proof.Edge.lean ====
/-
  The third kernel region as a whole. Point t of its 128 reads block t (rows 5000 t … 5000 t + 4999) of the edge
  features and the perceptron's four parameter arrays whole, and writes block t of the edge scores; by the block lemma
  what it writes is block t of the reference's perceptron applied to the whole feature array, and every edge lies in the
  block of the point `edge / 5000`. So when the region is entered with the reference's edge features in its first
  array, its output array ends holding the reference's edge scores.
-/
import proofs.«160619_j47141561041135_1_alg».proof.Proof.EdgeBlock
import proofs.«160619_j47141561041135_1_alg».proof.Proof.Gen.ReferenceIdeal.Read

set_option maxRecDepth 16384

noncomputable section

namespace Cert.KernelIdeal.Edge

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))
variable (x0 : (⟨Cert.ReferenceIdeal.S10000x128, .f32⟩ : BufTy).Contents (Elt Ideal)) (x1 : (⟨Cert.ReferenceIdeal.S2x640000, .i32⟩ : BufTy).Contents (Elt Ideal))
  (x3 x4 : (⟨Cert.ReferenceIdeal.S128x128, .f32⟩ : BufTy).Contents (Elt Ideal)) (x5 : (⟨Cert.ReferenceIdeal.S128, .f32⟩ : BufTy).Contents (Elt Ideal))

theorem hz2 : (![0, 0] : Fin 2 → Nat) = fun _ => 0 := funext fun a => by fin_cases a <;> rfl
theorem hz1 : (![0] : Fin 1 → Nat) = fun _ => 0 := funext fun a => by fin_cases a; rfl

/-- The reference's edge score at an edge, every layer read at its entries. -/
theorem score_apply (x6 : (⟨Cert.ReferenceIdeal.S256x128, .f32⟩ : BufTy).Contents (Elt Ideal)) (x7 : (⟨Cert.ReferenceIdeal.S128, .f32⟩ : BufTy).Contents (Elt Ideal))
    (x8 : (⟨Cert.ReferenceIdeal.S128x1, .f32⟩ : BufTy).Contents (Elt Ideal)) (x9 : (⟨Cert.ReferenceIdeal.S1, .f32⟩ : BufTy).Contents (Elt Ideal))
    (i : Cert.ReferenceIdeal.S640000x1.Idx) :
    Cert.ReferenceIdeal.Read.val_main_v56 (F := Ideal) x0 x1 x3 x4 x5 x6 x7 x8 x9 i
      = FloatOps.addf (F := Ideal) (φ := .f32) (∑ c : Fin 128, FloatOps.maximumf (F := Ideal) (φ := .f32) (FloatOps.addf (F := Ideal) (φ := .f32)
            (∑ k : Fin 256, Cert.ReferenceIdeal.Read.val_main_v47 (F := Ideal) x0 x1 x3 x4 x5 (Cert.ReferenceIdeal.Read.lidx_main_v48 (Cert.ReferenceIdeal.Read.lidx_main_v53 i c) k) * x6 (Cert.ReferenceIdeal.Read.ridx_main_v48 (Cert.ReferenceIdeal.Read.lidx_main_v53 i c) k))
            (x7 (Cert.ReferenceIdeal.Read.idx_main_v49 (Cert.ReferenceIdeal.Read.idx_main_v50 (Cert.ReferenceIdeal.Read.lidx_main_v53 i c)))))
          (FloatOps.ofBits (F := Ideal) .f32 0x00000000#32) * x8 (Cert.ReferenceIdeal.Read.ridx_main_v53 i c)) (x9 (Cert.ReferenceIdeal.Read.idx_main_v54 (Cert.ReferenceIdeal.Read.idx_main_v55 i))) := by
  rw [Cert.ReferenceIdeal.Read.val_main_v56_apply, Cert.ReferenceIdeal.Read.val_main_v53_apply, Cert.ReferenceIdeal.Read.val_main_v55_apply, Cert.ReferenceIdeal.Read.val_main_v54_apply]
  simp only [Cert.ReferenceIdeal.Read.val_main_v52_apply, Cert.ReferenceIdeal.Read.val_main_v51_apply, Cert.ReferenceIdeal.Read.val_main_v48_apply, Cert.ReferenceIdeal.Read.val_main_v50_apply, Cert.ReferenceIdeal.Read.val_main_v49_apply,
    Cert.ReferenceIdeal.Read.val_main_call1_v0_apply, Cert.ReferenceIdeal.Read.val_main_call1_cst_apply]

/-- The printed index maps over the 128 points: the features' block and the output's block sit at block row `t`, block
    column 0; the four parameter blocks are the whole arrays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- What point `t` writes back is block `t` of the reference's edge scores. -/
theorem flushed5_eq (c : Dev nD) (hE : V c main_v30 = Cert.ReferenceIdeal.Read.val_main_v47 (F := Ideal) x0 x1 x3 x4 x5) (t : Fin cfg2.N) :
    (dat2 V c).flushed 5 t = ((cfg2.win 5).blk t).view.read (Elt Ideal)
      (Cert.ReferenceIdeal.Read.val_main_v56 (F := Ideal) x0 x1 x3 x4 x5 (V c main_arg6) (V c main_arg7) (V c main_arg8) (V c main_arg9)) := by
  show (cfg2.win 5).cut (grid2.coords t) ((dat2 V c).after 5 t) = _
  rw [after2_5]
  unfold out2_5
  rw [View.canon_unit_zero hz2]
  simp only [View.ld_unit_zero (S := S5000x256) hz2, View.ld_unit_zero (S := S256x128) hz2, View.ld_unit_zero (S := S128) hz1,
    View.ld_unit_zero (S := S128x1) hz2, View.ld_unit_zero (S := S1) hz1]
  obtain ⟨e00, e01, e10, e11, e20, e30, e31, e40, e50, e51⟩ := idx_facts t
  funext j
  show k2_pay1 (F := Ideal) (iblk2 V c 0 t) (iblk2 V c 1 t) (iblk2 V c 2 t) (iblk2 V c 3 t) (iblk2 V c 4 t) j
    = Cert.ReferenceIdeal.Read.val_main_v56 (F := Ideal) x0 x1 x3 x4 x5 (V c main_arg6) (V c main_arg7) (V c main_arg8) (V c main_arg9) (((cfg2.win 5).blk t).view.emb j)
  rw [score_apply]
  refine (pay_apply (iblk2 V c 0 t) (iblk2 V c 1 t) (iblk2 V c 2 t) (iblk2 V c 3 t) (iblk2 V c 4 t) j).trans ?_
  have h0 : ∀ (cc : Fin 128) (k : Fin 256), iblk2 V c 0 t (l1 (l2 j cc) k)
      = Cert.ReferenceIdeal.Read.val_main_v47 (F := Ideal) x0 x1 x3 x4 x5 (Cert.ReferenceIdeal.Read.lidx_main_v48 (Cert.ReferenceIdeal.Read.lidx_main_v53 (((cfg2.win 5).blk t).view.emb j) cc) k) := fun cc k => by
    show V c main_v30 (((cfg2.win 0).blk t).view.emb (l1 (l2 j cc) k)) = _
    rw [hE]
    refine congrArg (Cert.ReferenceIdeal.Read.val_main_v47 (F := Ideal) x0 x1 x3 x4 x5) ?_
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 256 + 1 * k.val = k.val; omega
  have h1 : ∀ (cc : Fin 128) (k : Fin 256), iblk2 V c 1 t (r1 (l2 j cc) k)
      = V c main_arg6 (Cert.ReferenceIdeal.Read.ridx_main_v48 (Cert.ReferenceIdeal.Read.lidx_main_v53 (((cfg2.win 5).blk t).view.emb j) cc) k) := fun cc k => by
    show V c main_arg6 (((cfg2.win 1).blk t).view.emb (r1 (l2 j cc) k)) = _
    refine congrArg (V c main_arg6) ?_
    funext a; apply Fin.ext
    match a with
    | ⟨0, _⟩ => show win2_1.index t (0 : Fin 2) * 256 + 1 * k.val = k.val; omega
    | ⟨1, _⟩ => show win2_1.index t (1 : Fin 2) * 128 + 1 * cc.val = cc.val; omega
  have h2 : ∀ cc : Fin 128, iblk2 V c 2 t (bc1 (l2 j cc))
      = V c main_arg7 (Cert.ReferenceIdeal.Read.idx_main_v49 (Cert.ReferenceIdeal.Read.idx_main_v50 (Cert.ReferenceIdeal.Read.lidx_main_v53 (((cfg2.win 5).blk t).view.emb j) cc))) := fun cc => by
    show V c main_arg7 (((cfg2.win 2).blk t).view.emb (bc1 (l2 j cc))) = _
    refine congrArg (V c main_arg7) ?_
    funext a; apply Fin.ext
    match a with
    | ⟨0, _⟩ => show win2_2.index t (0 : Fin 1) * 128 + 1 * cc.val = cc.val; omega
  have h3 : ∀ cc : Fin 128, iblk2 V c 3 t (r2 j cc)
      = V c main_arg8 (Cert.ReferenceIdeal.Read.ridx_main_v53 (((cfg2.win 5).blk t).view.emb j) cc) := fun cc => by
    show V c main_arg8 (((cfg2.win 3).blk t).view.emb (r2 j cc)) = _
    refine congrArg (V c main_arg8) ?_
    funext a; apply Fin.ext
    match a with
    | ⟨0, _⟩ => show win2_3.index t (0 : Fin 2) * 128 + 1 * cc.val = cc.val; omega
    | ⟨1, _⟩ => show win2_3.index t (1 : Fin 2) * 1 + 1 * (j 1).val = win2_5.index t (1 : Fin 2) * 1 + 1 * (j 1).val; omega
  have h4 : iblk2 V c 4 t bc2 = V c main_arg9 (Cert.ReferenceIdeal.Read.idx_main_v54 (Cert.ReferenceIdeal.Read.idx_main_v55 (((cfg2.win 5).blk t).view.emb j))) := by
    show V c main_arg9 (((cfg2.win 4).blk t).view.emb bc2) = _
    refine congrArg (V c main_arg9) ?_
    funext a; apply Fin.ext
    match a with
    | ⟨0, _⟩ => show win2_4.index t (0 : Fin 1) * 1 + 1 * 0 = 0; omega
  simp only [h0, h1, h2, h3, h4]

/-- An edge is in point `t`'s block iff each coordinate is in the block's range. -/
theorem mem_blk5 (t : Fin cfg2.N) (i : S640000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v31).slice (win2_5.rect t)).set ↔ _
  rw [View.set_slice_whole, Rect.mem_set_unit]
  exact Iff.rfl

/-- Edge `e` is in the block of the point `e / 5000`. -/
theorem cover5 (i : S640000x1.Idx) : ∃ t : Fin cfg2.N, (cfg2.win 5).flush t = true ∧ i ∈ ((cfg2.win 5).blk t).view.set := by
  have hi0 : (i 0).val < 640000 := (i 0).isLt
  have hi1 : (i 1).val < 1 := (i 1).isLt
  have hN : cfg2.N = 128 := N_2
  refine ⟨⟨(i 0).val / 5000, by omega⟩, flush2_5 _, ?_⟩
  rw [mem_blk5]
  obtain ⟨e00, e01, e10, e11, e20, e30, e31, e40, e50, e51⟩ := idx_facts ⟨(i 0).val / 5000, by omega⟩
  intro a
  match a with
  | ⟨0, _⟩ => show win2_5.index _ (0 : Fin 2) * 5000 ≤ (i 0).val ∧ (i 0).val < win2_5.index _ (0 : Fin 2) * 5000 + 5000; rw [e50]; show (i 0).val / 5000 * 5000 ≤ (i 0).val ∧ (i 0).val < (i 0).val / 5000 * 5000 + 5000; omega
  | ⟨1, _⟩ => show win2_5.index _ (1 : Fin 2) * 1 ≤ (i 1).val ∧ (i 1).val < win2_5.index _ (1 : Fin 2) * 1 + 1; rw [e51]; omega

/-- After the region, entered with the reference's edge features in its first array, its output array holds the
    reference's edge scores of those features and the four parameter arrays as the region found them. -/
theorem out5 (c : Dev nD) (hE : V c main_v30 = Cert.ReferenceIdeal.Read.val_main_v47 (F := Ideal) x0 x1 x3 x4 x5) :
    (dat2 V c).arrAt 5 cfg2.N = Cert.ReferenceIdeal.Read.val_main_v56 (F := Ideal) x0 x1 x3 x4 x5 (V c main_arg6) (V c main_arg7) (V c main_arg8) (V c main_arg9) :=
  (dat2 V c).arrAt_eq_of_cover 5 _ (fun t _ => flushed5_eq V x0 x1 x3 x4 x5 c hE t) cover5

end Cert.KernelIdeal.Edge

end
-- ==== Proof.Stretch.lean ====
/-
  The host operations of the kernel's program between its three kernel regions, read as functions of the buffer contents
  they start from. They are the reference's own operations: the two rows of the edge list taken apart; a row gather by the
  wrapped source index, then the accumulating scatter by the target index (the message aggregation); two row gathers of
  the updated node features and their concatenation (the edge features); and the graph mean pool with the classifier.
  So, started from contents that hold the reference's intermediate values, each stretch ends with the reference's next
  intermediate value in the buffer the next region (or the result) reads.
-/
import proofs.«160619_j47141561041135_1_alg».proof.Proof.Gen.KernelIdeal.Launch
import proofs.«160619_j47141561041135_1_alg».proof.Proof.Gen.ReferenceIdeal.Read
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## Which buffers each stretch writes -/

abbrev written0 : List (Ref sig .tc) := [main_v0, main_v1, main_v2, main_v3]
abbrev written1 : List (Ref sig .tc) := [main_c, main_v5, main_v6, main_c_0, main_v7, main_v8, main_v9, main_v10, main_v11, main_cst, main_v12, main_v13, main_v14]
abbrev written2 : List (Ref sig .tc) := [main_c_1, main_v16, main_v17, main_c_2, main_v18, main_v19, main_v20, main_v21, main_v22, main_c_3, main_v23, main_v24, main_c_4, main_v25, main_v26, main_v27, main_v28, main_v29, main_v30]
abbrev written3 : List (Ref sig .tc) := [main_cst_5, main_v32, main_v33, main_v34, main_cst_6, main_v35, main_cst_7, main_v36, main_v37, main_v38, main_cst_8, main_v39, main_v40, main_v41, main_v42, main_v43, main_v44, main_v45, main_v46, main_v47]

theorem writes0 : (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes]
  repeat' apply And.intro
  all_goals (refine Finset.singleton_subset_iff.mpr (List.mem_toFinset.mpr (List.mem_map_of_mem ?_)); decide)
theorem writes1 : (hostOps1 : List (HloOp τ sig (Elt F))).Forall fun op => op.writes ⊆ (written1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes]
  repeat' apply And.intro
  all_goals (refine Finset.singleton_subset_iff.mpr (List.mem_toFinset.mpr (List.mem_map_of_mem ?_)); decide)
theorem writes2 : (hostOps2 : List (HloOp τ sig (Elt F))).Forall fun op => op.writes ⊆ (written2.map (Proc.devRef (τ := τ) .tc)).toFinset := by
  simp only [hostOps2, List.Forall, StableHlo.nullary_writes, StableHlo.unary_writes, StableHlo.binary_writes, StableHlo.ternary_writes,
    StableHlo.quaternary_writes, StableHlo.reshape_writes]
  repeat' apply And.intro
  all_goals (refine Finset.singleton_subset_iff.mpr (List.mem_toFinset.mpr (List.mem_map_of_mem ?_)); decide)
theorem writes3 : (hostOps3 : List (HloOp τ sig (Elt F))).Forall fun op => op.writes ⊆ (written3.map (Proc.devRef (τ := τ) .tc)).toFinset := by
  simp only [hostOps3, List.Forall, StableHlo.nullary_writes, StableHlo.unary_writes, StableHlo.binary_writes, StableHlo.ternary_writes,
    StableHlo.quaternary_writes, StableHlo.reshape_writes]
  repeat' apply And.intro
  all_goals (refine Finset.singleton_subset_iff.mpr (List.mem_toFinset.mpr (List.mem_map_of_mem ?_)); decide)

/-- A buffer a stretch does not write keeps its contents through it. -/
theorem keep0 (r : Ref sig .tc) (hr : r ∉ written0) : StableHlo.after hostOps0 W (Proc.devRef .tc r) = W (Proc.devRef .tc r) :=
  StableHlo.after_of_writes_sub hostOps0 W writes0 hr
theorem keep1 (r : Ref sig .tc) (hr : r ∉ written1) : StableHlo.after hostOps1 W (Proc.devRef .tc r) = W (Proc.devRef .tc r) :=
  StableHlo.after_of_writes_sub hostOps1 W writes1 hr
theorem keep2 (r : Ref sig .tc) (hr : r ∉ written2) : StableHlo.after hostOps2 W (Proc.devRef .tc r) = W (Proc.devRef .tc r) :=
  StableHlo.after_of_writes_sub hostOps2 W writes2 hr
theorem keep3 (r : Ref sig .tc) (hr : r ∉ written3) : StableHlo.after hostOps3 W (Proc.devRef .tc r) = W (Proc.devRef .tc r) :=
  StableHlo.after_of_writes_sub hostOps3 W writes3 hr

/-! ## What each stretch computes -/

/-- The first stretch leaves the source row of the edge list in its buffer. -/
theorem src_row : StableHlo.after hostOps0 W (Proc.devRef .tc main_v1) = Cert.ReferenceIdeal.Read.val_main_v1 (F := F) (W (Proc.devRef .tc main_arg1)) := by
  after_results
  rfl

/-- The first stretch leaves the target row of the edge list in its buffer. -/
theorem dst_row : StableHlo.after hostOps0 W (Proc.devRef .tc main_v3) = Cert.ReferenceIdeal.Read.val_main_v3 (F := F) (W (Proc.devRef .tc main_arg1)) := by
  after_results
  rfl

/-- The second stretch, from contents holding the two rows of the edge list and the projected node features, leaves the
    aggregated messages in its last buffer. -/
theorem aggregate (x0 : (⟨Cert.ReferenceIdeal.S10000x128, .f32⟩ : BufTy).Contents (Elt F)) (x1 : (⟨Cert.ReferenceIdeal.S2x640000, .i32⟩ : BufTy).Contents (Elt F))
    (x3 : (⟨Cert.ReferenceIdeal.S128x128, .f32⟩ : BufTy).Contents (Elt F))
    (h1 : W (Proc.devRef .tc main_v1) = Cert.ReferenceIdeal.Read.val_main_v1 (F := F) x1) (h3 : W (Proc.devRef .tc main_v3) = Cert.ReferenceIdeal.Read.val_main_v3 (F := F) x1)
    (h4 : W (Proc.devRef .tc main_v4_0) = Cert.ReferenceIdeal.Read.val_main_v4 (F := F) x0 x3) :
    StableHlo.after hostOps1 W (Proc.devRef .tc main_v14) = Cert.ReferenceIdeal.Read.val_main_v14 (F := F) x0 x1 x3 := by
  after_results
  rw [h1, h3, h4]
  rfl

set_option maxHeartbeats 8000000 in
/-- The third stretch, from contents holding the two rows of the edge list and the updated node features, leaves the
    edge features in its last buffer. -/
theorem edge_features (x0 : (⟨Cert.ReferenceIdeal.S10000x128, .f32⟩ : BufTy).Contents (Elt F)) (x1 : (⟨Cert.ReferenceIdeal.S2x640000, .i32⟩ : BufTy).Contents (Elt F))
    (x3 x4 : (⟨Cert.ReferenceIdeal.S128x128, .f32⟩ : BufTy).Contents (Elt F)) (x5 : (⟨Cert.ReferenceIdeal.S128, .f32⟩ : BufTy).Contents (Elt F))
    (h1 : W (Proc.devRef .tc main_v1) = Cert.ReferenceIdeal.Read.val_main_v1 (F := F) x1) (h3 : W (Proc.devRef .tc main_v3) = Cert.ReferenceIdeal.Read.val_main_v3 (F := F) x1)
    (hz : W (Proc.devRef .tc main_v15) = Cert.ReferenceIdeal.Read.val_main_v20 (F := F) x0 x1 x3 x4 x5) :
    StableHlo.after hostOps2 W (Proc.devRef .tc main_v30) = Cert.ReferenceIdeal.Read.val_main_v47 (F := F) x0 x1 x3 x4 x5 := by
  after_results
  rw [h1, h3, hz]
  rfl

set_option maxHeartbeats 8000000 in
/-- The last stretch, from contents holding the updated node features, the graph ids and the classifier's parameters,
    leaves the class scores in its last buffer. -/
theorem class_scores (x0 : (⟨Cert.ReferenceIdeal.S10000x128, .f32⟩ : BufTy).Contents (Elt F)) (x1 : (⟨Cert.ReferenceIdeal.S2x640000, .i32⟩ : BufTy).Contents (Elt F))
    (x2 : (⟨Cert.ReferenceIdeal.S10000, .i32⟩ : BufTy).Contents (Elt F))
    (x3 x4 : (⟨Cert.ReferenceIdeal.S128x128, .f32⟩ : BufTy).Contents (Elt F)) (x5 : (⟨Cert.ReferenceIdeal.S128, .f32⟩ : BufTy).Contents (Elt F))
    (x10 : (⟨Cert.ReferenceIdeal.S128x10, .f32⟩ : BufTy).Contents (Elt F)) (x11 : (⟨Cert.ReferenceIdeal.S10, .f32⟩ : BufTy).Contents (Elt F))
    (h2 : W (Proc.devRef .tc main_arg2) = x2) (hz : W (Proc.devRef .tc main_v15) = Cert.ReferenceIdeal.Read.val_main_v20 (F := F) x0 x1 x3 x4 x5)
    (h10 : W (Proc.devRef .tc main_arg10) = x10) (h11 : W (Proc.devRef .tc main_arg11) = x11) :
    StableHlo.after hostOps3 W (Proc.devRef .tc main_v47) = Cert.ReferenceIdeal.Read.val_main_v60 (F := F) x0 x1 x2 x3 x4 x5 x10 x11 := by
  after_results
  rw [h2, hz, h10, h11]
  rfl

end Cert.KernelIdeal.Stretch

end
-- ==== Proof.Chain.lean ====
/-
  The kernel's program followed from the launch to its two results. At each boundary between a stretch of host
  operations and a kernel region the buffers that matter hold the reference's intermediate values of the launch
  arguments: after the first region the two projections of the node features; after the second stretch the aggregated
  messages; after the second region the updated node features; after the third stretch the edge features; after the
  third region the edge scores; after the last stretch the class scores. An argument, or a value no later item writes,
  is carried unchanged from where it was written to where it is read.
-/
import proofs.«160619_j47141561041135_1_alg».proof.Proof.Gen.KernelIdeal.Frame
import proofs.«160619_j47141561041135_1_alg».proof.Proof.Lin
import proofs.«160619_j47141561041135_1_alg».proof.Proof.Node
import proofs.«160619_j47141561041135_1_alg».proof.Proof.Edge
import proofs.«160619_j47141561041135_1_alg».proof.Proof.Stretch

set_option maxRecDepth 16384

noncomputable section

namespace Cert.KernelIdeal.Chain

open Cert.KernelIdeal Cert.KernelIdeal.Gen Idealize.ShloMosaic Idealize.ShloMosaic.TcCoe Idealize.SL.Sem
open Cert.KernelIdeal.Stretch (written0 written1 written2 written3)

variable (m : (ℓ : Loc nD τ sig) → Buf (Elt Ideal) ℓ) (ρ : Dev nD → PrngReg) (c : Dev nD)

/-! ## Carried unchanged -/

/-- A buffer the first stretch does not write and the first region does not stage holds its launch contents when the
    second stretch starts. -/
theorem upto2 (r : Ref sig .tc) (h0 : r ∉ written0) (a0 : ∀ w, Pipeline.arrRef spec0 w ≠ r) :
    W2 m ρ c (Proc.devRef .tc r) = W0 m ρ c (Proc.devRef .tc r) :=
  (W2_of_ne m ρ c r a0).trans (Cert.KernelIdeal.Stretch.keep0 (W0 m ρ c) r h0)

/-- … and, if the second stretch and region leave it alone too, when the third stretch starts. -/
theorem upto4 (r : Ref sig .tc) (h0 : r ∉ written0) (a0 : ∀ w, Pipeline.arrRef spec0 w ≠ r)
    (h1 : r ∉ written1) (a1 : ∀ w, Pipeline.arrRef spec1 w ≠ r) :
    W4 m ρ c (Proc.devRef .tc r) = W0 m ρ c (Proc.devRef .tc r) :=
  (W4_of_ne m ρ c r a1).trans ((Cert.KernelIdeal.Stretch.keep1 (W2 m ρ c) r h1).trans (upto2 m ρ c r h0 a0))

/-- … and, if the third stretch and region leave it alone too, when the last stretch starts. -/
theorem upto6 (r : Ref sig .tc) (h0 : r ∉ written0) (a0 : ∀ w, Pipeline.arrRef spec0 w ≠ r)
    (h1 : r ∉ written1) (a1 : ∀ w, Pipeline.arrRef spec1 w ≠ r)
    (h2 : r ∉ written2) (a2 : ∀ w, Pipeline.arrRef spec2 w ≠ r) :
    W6 m ρ c (Proc.devRef .tc r) = W0 m ρ c (Proc.devRef .tc r) :=
  (W6_of_ne m ρ c r a2).trans ((Cert.KernelIdeal.Stretch.keep2 (W4 m ρ c) r h2).trans (upto4 m ρ c r h0 a0 h1 a1))

/-! ## The first region and the message aggregation -/

theorem src2 : W2 m ρ c (Proc.devRef .tc main_v1) = Cert.ReferenceIdeal.Read.val_main_v1 (F := Ideal) (m ((c.tc : Thread nD τ).loc main_arg1)) :=
  (W2_of_ne m ρ c main_v1 (by decide)).trans (Cert.KernelIdeal.Stretch.src_row (W0 m ρ c))

theorem dst2 : W2 m ρ c (Proc.devRef .tc main_v3) = Cert.ReferenceIdeal.Read.val_main_v3 (F := Ideal) (m ((c.tc : Thread nD τ).loc main_arg1)) :=
  (W2_of_ne m ρ c main_v3 (by decide)).trans (Cert.KernelIdeal.Stretch.dst_row (W0 m ρ c))

/-- After the first region its first output holds the node features times the first weight. -/
theorem proj_in : W2 m ρ c (Proc.devRef .tc main_v4_0) = Cert.ReferenceIdeal.Read.val_main_v4 (F := Ideal) (m ((c.tc : Thread nD τ).loc main_arg0)) (m ((c.tc : Thread nD τ).loc main_arg3)) := by
  refine (W2_arr m ρ c 3).trans ((Lin.out3 (V1 m ρ) c).trans ?_)
  rw [show V1 m ρ c main_arg0 = (m ((c.tc : Thread nD τ).loc main_arg0)) from Cert.KernelIdeal.Stretch.keep0 (W0 m ρ c) main_arg0 (by decide),
    show V1 m ρ c main_arg3 = (m ((c.tc : Thread nD τ).loc main_arg3)) from Cert.KernelIdeal.Stretch.keep0 (W0 m ρ c) main_arg3 (by decide)]

/-- After the first region its second output holds the node features times the second weight. -/
theorem proj_self : W2 m ρ c (Proc.devRef .tc main_v4_1) = Cert.ReferenceIdeal.Read.val_main_v15 (F := Ideal) (m ((c.tc : Thread nD τ).loc main_arg0)) (m ((c.tc : Thread nD τ).loc main_arg4)) := by
  refine (W2_arr m ρ c 4).trans ((Lin.out4 (V1 m ρ) c).trans ?_)
  rw [show V1 m ρ c main_arg0 = (m ((c.tc : Thread nD τ).loc main_arg0)) from Cert.KernelIdeal.Stretch.keep0 (W0 m ρ c) main_arg0 (by decide),
    show V1 m ρ c main_arg4 = (m ((c.tc : Thread nD τ).loc main_arg4)) from Cert.KernelIdeal.Stretch.keep0 (W0 m ρ c) main_arg4 (by decide)]

/-- When the second region is entered its first array holds the aggregated messages. -/
theorem agg3 : W3 m ρ c (Proc.devRef .tc main_v14)
    = Cert.ReferenceIdeal.Read.val_main_v14 (F := Ideal) (m ((c.tc : Thread nD τ).loc main_arg0)) (m ((c.tc : Thread nD τ).loc main_arg1)) (m ((c.tc : Thread nD τ).loc main_arg3)) :=
  Cert.KernelIdeal.Stretch.aggregate (W2 m ρ c) _ _ _ (src2 m ρ c) (dst2 m ρ c) (proj_in m ρ c)

/-! ## The second region and the edge features -/

/-- After the second region its output holds the updated node features. -/
theorem znode : W4 m ρ c (Proc.devRef .tc main_v15) = Cert.ReferenceIdeal.Read.val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W4_arr m ρ c 3).trans ((NodeUpd.out3 (V3 m ρ) c).trans ?_)
  rw [show V3 m ρ c main_v14 = _ from agg3 m ρ c,
    show V3 m ρ c main_v4_1 = _ from (Cert.KernelIdeal.Stretch.keep1 (W2 m ρ c) main_v4_1 (by decide)).trans (proj_self m ρ c),
    show V3 m ρ c main_arg5 = (m ((c.tc : Thread nD τ).loc main_arg5)) from (Cert.KernelIdeal.Stretch.keep1 (W2 m ρ c) main_arg5 (by decide)).trans (upto2 m ρ c main_arg5 (by decide) (by decide))]
  rfl

theorem src4 : W4 m ρ c (Proc.devRef .tc main_v1) = Cert.ReferenceIdeal.Read.val_main_v1 (F := Ideal) (m ((c.tc : Thread nD τ).loc main_arg1)) :=
  (W4_of_ne m ρ c main_v1 (by decide)).trans ((Cert.KernelIdeal.Stretch.keep1 (W2 m ρ c) main_v1 (by decide)).trans (src2 m ρ c))

theorem dst4 : W4 m ρ c (Proc.devRef .tc main_v3) = Cert.ReferenceIdeal.Read.val_main_v3 (F := Ideal) (m ((c.tc : Thread nD τ).loc main_arg1)) :=
  (W4_of_ne m ρ c main_v3 (by decide)).trans ((Cert.KernelIdeal.Stretch.keep1 (W2 m ρ c) main_v3 (by decide)).trans (dst2 m ρ c))

/-- When the third region is entered its first array holds the edge features. -/
theorem feat5 : W5 m ρ c (Proc.devRef .tc main_v30) = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  Cert.KernelIdeal.Stretch.edge_features (W4 m ρ c) _ _ _ _ _ (src4 m ρ c) (dst4 m ρ c) (znode m ρ c)

/-! ## The third region and the two results -/

/-- After the whole program the edge scores' buffer holds the reference's edge scores of the launch arguments. -/
theorem edge_scores : W7 m ρ c (Proc.devRef .tc main_v31)
    = Cert.ReferenceIdeal.Read.val_main_v56 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (Cert.KernelIdeal.Stretch.keep3 (W6 m ρ c) main_v31 (by decide)).trans ((W6_arr m ρ c 5).trans ((Edge.out5 (V5 m ρ) _ _ _ _ _ c (feat5 m ρ c)).trans ?_))
  rw [show V5 m ρ c main_arg6 = (m ((c.tc : Thread nD τ).loc main_arg6)) from (Cert.KernelIdeal.Stretch.keep2 (W4 m ρ c) main_arg6 (by decide)).trans (upto4 m ρ c main_arg6 (by decide) (by decide) (by decide) (by decide)),
    show V5 m ρ c main_arg7 = (m ((c.tc : Thread nD τ).loc main_arg7)) from (Cert.KernelIdeal.Stretch.keep2 (W4 m ρ c) main_arg7 (by decide)).trans (upto4 m ρ c main_arg7 (by decide) (by decide) (by decide) (by decide)),
    show V5 m ρ c main_arg8 = (m ((c.tc : Thread nD τ).loc main_arg8)) from (Cert.KernelIdeal.Stretch.keep2 (W4 m ρ c) main_arg8 (by decide)).trans (upto4 m ρ c main_arg8 (by decide) (by decide) (by decide) (by decide)),
    show V5 m ρ c main_arg9 = (m ((c.tc : Thread nD τ).loc main_arg9)) from (Cert.KernelIdeal.Stretch.keep2 (W4 m ρ c) main_arg9 (by decide)).trans (upto4 m ρ c main_arg9 (by decide) (by decide) (by decide) (by decide))]

/-- After the whole program the class scores' buffer holds the reference's class scores of the launch arguments. -/
theorem class_scores : W7 m ρ c (Proc.devRef .tc main_v47)
    = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) :=
  Cert.KernelIdeal.Stretch.class_scores (W6 m ρ c) _ _ _ _ _ _ _ _
    (upto6 m ρ c main_arg2 (by decide) (by decide) (by decide) (by decide) (by decide) (by decide))
    ((W6_of_ne m ρ c main_v15 (by decide)).trans ((Cert.KernelIdeal.Stretch.keep2 (W4 m ρ c) main_v15 (by decide)).trans (znode m ρ c)))
    (upto6 m ρ c main_arg10 (by decide) (by decide) (by decide) (by decide) (by decide) (by decide))
    (upto6 m ρ c main_arg11 (by decide) (by decide) (by decide) (by decide) (by decide) (by decide))

end Cert.KernelIdeal.Chain

end
-- ==== Proof.lean ====
/-
  Equivalence of a graph network's Pallas program and its jnp reference over the extended reals.

  Both programs compute, from node features x, an edge list (src, dst), graph ids and the layers' parameters:
    h = x · W_in,   agg[n] = Σ over edges e with dst[e] = n of h[src[e]],   z = max((agg + x · W_self) + b, 0),
    edge score[e] = (max([z[src[e]], z[dst[e]]] · W_e1 + b_e1, 0)) · W_e2 + b_e2,
    class score[g] = (Σ of z over the nodes of graph g / max(count of graph g, 1)) · W_cls + b_cls.
  The reference does everything with host operations. The kernel does the two node products, the node update and the
  edge perceptron in three Pallas kernels, tiled over rows (2000 nodes, resp. 5000 edges per grid point), and keeps the
  gathers, the accumulating scatters, the mean pool and the classifier as the same host operations the reference uses.

  Over the extended reals a change of float format is the identity and a product into a zero accumulator is the plain
  sum over the contracted coordinate, so each kernel region leaves in its output array exactly the reference's
  whole-array expression of its input arrays (Lin, Node, Edge: block t of the output is block t of that expression, and
  the blocks tile the array). The host operations in between are the reference's own (Stretch), so following the program
  from the launch (Chain) its two result buffers end at the reference's two results of the same arguments. No algebraic
  law is used beyond that reading: the two sides are the same sums in the same order, so finiteness of the inputs is never
  needed. The kernel's idealization rewrote nothing, so there is nothing to preserve.
-/
import proofs.«160619_j47141561041135_1_alg».proof.Defs
import proofs.«160619_j47141561041135_1_alg».proof.Proof.Gen.Kernel
import proofs.«160619_j47141561041135_1_alg».proof.Proof.Gen.Kernel.Skeleton
import proofs.«160619_j47141561041135_1_alg».proof.Proof.Gen.Kernel.Launch
import proofs.«160619_j47141561041135_1_alg».proof.Proof.Gen.Kernel.Points
import proofs.«160619_j47141561041135_1_alg».proof.Proof.Gen.Kernel.Frame
import proofs.«160619_j47141561041135_1_alg».proof.Proof.Gen.KernelIdeal
import proofs.«160619_j47141561041135_1_alg».proof.Proof.Gen.KernelIdeal.Skeleton
import proofs.«160619_j47141561041135_1_alg».proof.Proof.Gen.KernelIdeal.Launch
import proofs.«160619_j47141561041135_1_alg».proof.Proof.Gen.KernelIdeal.Points
import proofs.«160619_j47141561041135_1_alg».proof.Proof.Gen.KernelIdeal.Frame
import proofs.«160619_j47141561041135_1_alg».proof.Proof.Gen.ReferenceIdeal
import proofs.«160619_j47141561041135_1_alg».proof.Proof.Gen.ReferenceIdeal.Run
import proofs.«160619_j47141561041135_1_alg».proof.Proof.Gen.ReferenceIdeal.Read
import proofs.«160619_j47141561041135_1_alg».proof.Proof.Gen.Pre_finite_inputs
import proofs.«160619_j47141561041135_1_alg».proof.Proof.KRun
import proofs.«160619_j47141561041135_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs, from memories that agree on the arguments, end with the reference's edge scores and class scores of
    those arguments in their result buffers. -/
theorem algebraic : Cert.algebraic_KernelIdeal_ReferenceIdeal := by
  intro m ρ m' ρ' _ hagree
  refine ⟨fun c => Cert.KernelIdeal.Gen.W7 m ρ c (Proc.devRef .tc Cert.KernelIdeal.main_v31),
    fun c => Cert.KernelIdeal.Gen.W7 m ρ c (Proc.devRef .tc Cert.KernelIdeal.main_v47),
    Cert.KernelIdeal.Gen.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v56_eq, e0, e1, e3, e4, e5, e6, e7, e8, e9]
    exact (Cert.KernelIdeal.Chain.edge_scores m ρ c).symm
  · obtain ⟨e0, e1, e2, e3, e4, e5, e6, e7, e8, e9, e10, e11⟩ := hagree c
    rw [Cert.ReferenceIdeal.Read.val_main_v60_eq, e0, e1, e2, e3, e4, e5, e10, e11]
    exact (Cert.KernelIdeal.Chain.class_scores m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
